-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S128x40 .f32) (main_arg10 : FVec F S128x40 .f32) (main_arg11 : FVec F S40 .f32) (main_v33 : IVec S_ 1) : IVec S_ 1 :=
  let main_v34 : FVec F S128x40 .f32 := Host.absf main_arg9
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S128x40 .f32 := Host.absf main_arg10
  let main_cst_14 : FVec F S_ .f32 := constant S_ .f32 0x7F800000#32
  let main_v40 : FVec F S128x40 .f32 := broadcastInDim S128x40 ![] bcast_S_S128x40 main_cst_14
  let main_v41 : IVec S128x40 1 := cmpf .olt main_v39 main_v40
  let main_c_15 : IVec S_ 1 := constantI S_ 1 1#1
  let main_v42 : IVec S_ 1 := (fun x v => Host.reduce IntOp.andi x v reducesTo_S128x40_S_d0_1 h_S_) main_v41 main_c_15
  let main_v43 : IVec S_ 1 := andi main_v38 main_v42
  let main_v44 : FVec F S40 .f32 := Host.absf main_arg11
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x40 .f32) (main_arg10 : FVec F S128x40 .f32) (main_arg11 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S600000 32) (main_arg2 : IVec S600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x40 .f32) (main_arg10 : FVec F S128x40 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S5000x128 : Shape := ⟨2, ![5000, 128]⟩
abbrev S1x128 : Shape := ⟨2, ![1, 128]⟩
abbrev S50000x40 : Shape := ⟨2, ![50000, 40]⟩
abbrev S5000x40 : Shape := ⟨2, ![5000, 40]⟩
abbrev S1x40 : Shape := ⟨2, ![1, 40]⟩

abbrev nBuf : Space → Nat
  | .hbm => 90
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x40, .f32⟩
  | .hbm, ⟨10, _⟩ => ⟨S128x40, .f32⟩
  | .hbm, ⟨11, _⟩ => ⟨S40, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S_, .f32⟩
  | .hbm, ⟨48, _⟩ => ⟨S50000x128, .f32⟩
  | .hbm, ⟨49, _⟩ => ⟨S600000x1, .i32⟩
  | .hbm, ⟨50, _⟩ => ⟨S50000x128, .f32⟩
  | .hbm, ⟨51, _⟩ => ⟨S_, .f32⟩
  | .hbm, ⟨52, _⟩ => ⟨S600000, .f32⟩
  | .hbm, ⟨53, _⟩ => ⟨S_, .f32⟩
  | .hbm, ⟨54, _⟩ => ⟨S50000, .f32⟩
  | .hbm, ⟨55, _⟩ => ⟨S600000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S600000, .i32⟩
  | .hbm, ⟨66, _⟩ => ⟨S600000, .i1⟩
  | .hbm, ⟨67, _⟩ => ⟨S_, .i32⟩
  | .hbm, ⟨68, _⟩ => ⟨S600000, .i32⟩
  | .hbm, ⟨69, _⟩ => ⟨S600000, .i32⟩
  | .hbm, ⟨70, _⟩ => ⟨S600000, .i32⟩
  | .hbm, ⟨71, _⟩ => ⟨S600000x1, .i32⟩
  | .hbm, ⟨72, _⟩ => ⟨S600000x128, .f32⟩
  | .hbm, ⟨73, _⟩ => ⟨S_, .f32⟩
  | .hbm, ⟨74, _⟩ => ⟨S50000x128, .f32⟩
  | .hbm, ⟨75, _⟩ => ⟨S600000x1, .i32⟩
  | .hbm, ⟨76, _⟩ => ⟨S50000x128, .f32⟩
  | .hbm, ⟨77, _⟩ => ⟨S_, .f32⟩
  | .hbm, ⟨78, _⟩ => ⟨S600000, .f32⟩
  | .hbm, ⟨79, _⟩ => ⟨S_, .f32⟩
  | .hbm, ⟨80, _⟩ => ⟨S50000, .f32⟩
  | .hbm, ⟨81, _⟩ => ⟨S600000x1, .i32⟩
  | .hbm, ⟨82, _⟩ => ⟨S50000, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S50000x1, .f32⟩
  | .hbm, ⟨87, _⟩ => ⟨S50000x128, .f32⟩
  | .hbm, ⟨88, _⟩ => ⟨S50000x128, .f32⟩
  | .hbm, ⟨89, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x40, .f32⟩
  | .local _ .vmem, ⟨23, _⟩ => ⟨S128x40, .f32⟩
  | .local _ .vmem, ⟨24, _⟩ => ⟨S40, .f32⟩
  | .local _ .vmem, ⟨25, _⟩ => ⟨S5000x40, .f32⟩
  | .local _ .vmem, ⟨26, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_c_11 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_13 : Ref sig .tc := ⟨.hbm, 77, rfl⟩
abbrev main_v50 : Ref sig .tc := ⟨.hbm, 78, rfl⟩
abbrev main_cst_14 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_15 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  shapeCasts_S40_S1x40 : S40.ShapeCasts S1x40
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S40.size a ≤ S40.size a
  hwx2_4 : ∀ i : grid2.Coords, EltTy.bits .f32 = 32 ∨ (Rect.block (s := S40) S40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S50000x40.size a
  hwx2_5 : ∀ i : grid2.Coords, EltTy.bits .f32 = 32 ∨ (Rect.block (s := S50000x40) S5000x40.size (cc2_transform_5 i) (hinb2_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x40, .f32⟩
  | .hbm, ⟨10, _⟩ => ⟨S128x40, .f32⟩
  | .hbm, ⟨11, _⟩ => ⟨S40, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S_, .f32⟩
  | .hbm, ⟨60, _⟩ => ⟨S600000, .f32⟩
  | .hbm, ⟨61, _⟩ => ⟨S_, .f32⟩
  | .hbm, ⟨62, _⟩ => ⟨S50000, .f32⟩
  | .hbm, ⟨63, _⟩ => ⟨S600000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S600000, .i32⟩
  | .hbm, ⟨82, _⟩ => ⟨S600000, .i1⟩
  | .hbm, ⟨83, _⟩ => ⟨S_, .i32⟩
  | .hbm, ⟨84, _⟩ => ⟨S600000, .i32⟩
  | .hbm, ⟨85, _⟩ => ⟨S600000, .i32⟩
  | .hbm, ⟨86, _⟩ => ⟨S600000, .i32⟩
  | .hbm, ⟨87, _⟩ => ⟨S600000x1, .i32⟩
  | .hbm, ⟨88, _⟩ => ⟨S600000x128, .f32⟩
  | .hbm, ⟨89, _⟩ => ⟨S_, .f32⟩
  | .hbm, ⟨90, _⟩ => ⟨S50000x128, .f32⟩
  | .hbm, ⟨91, _⟩ => ⟨S600000x1, .i32⟩
  | .hbm, ⟨92, _⟩ => ⟨S50000x128, .f32⟩
  | .hbm, ⟨93, _⟩ => ⟨S_, .f32⟩
  | .hbm, ⟨94, _⟩ => ⟨S600000, .f32⟩
  | .hbm, ⟨95, _⟩ => ⟨S_, .f32⟩
  | .hbm, ⟨96, _⟩ => ⟨S50000, .f32⟩
  | .hbm, ⟨97, _⟩ => ⟨S600000x1, .i32⟩
  | .hbm, ⟨98, _⟩ => ⟨S50000, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S50000x40, .f32⟩
  | .hbm, ⟨106, _⟩ => ⟨S50000x40, .f32⟩
  | .hbm, ⟨107, _⟩ => ⟨S50000x40, .f32⟩
  | .hbm, ⟨108, _⟩ => ⟨S1x40, .f32⟩
  | .hbm, ⟨109, _⟩ => ⟨S50000x40, .f32⟩
  | .hbm, ⟨110, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.DenseSpec.lean ====
/-
  One GraphSAGE layer's dense transform, as a function of whole arrays over the extended reals.

  For a node table `h` (N rows of 128 features), the table `hn` of neighbour means, two weight matrices
  `ws`, `wn` (128 × D) and a bias `b` (D), the layer's entry at row `r`, column `c` is

      (∑ₖ h[r,k] · ws[k,c]  +  ∑ₖ hn[r,k] · wn[k,c])  +  b[c],

  in that order of additions; the rectified layer takes the maximum of that entry and zero.  The row `r` of
  the result depends on row `r` of `h` and of `hn` alone, which is why a tile of rows of the result can be
  computed from the same tile of rows of the two tables.

  Also here: a matrix product whose dimension record contracts the left operand's columns against the right
  operand's rows, read at an entry as the sum over the 128 positions of the contracted axis.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The layer before rectification: entry `(r, c)` is the row `r` of `h` against column `c` of `ws`, plus the row
    `r` of `hn` against column `c` of `wn`, plus `b c`. -/
def lin {N D : Nat} (h hn : (⟨2, ![N, 128]⟩ : Shape).Idx → EReal) (ws wn : (⟨2, ![128, D]⟩ : Shape).Idx → EReal)
    (b : (⟨1, ![D]⟩ : Shape).Idx → EReal) : (⟨2, ![N, D]⟩ : Shape).Idx → EReal :=
  fun i => (∑ k : Fin 128, h (ix2 (i 0) k) * ws (ix2 k (i 1)) + ∑ k : Fin 128, hn (ix2 (i 0) k) * wn (ix2 k (i 1)))
    + b (ix1 (i 1))

/-- The rectified layer: the positive part of `lin`, entry by entry. -/
def linRelu {N D : Nat} (h hn : (⟨2, ![N, 128]⟩ : Shape).Idx → EReal) (ws wn : (⟨2, ![128, D]⟩ : Shape).Idx → EReal)
    (b : (⟨1, ![D]⟩ : Shape).Idx → EReal) : (⟨2, ![N, D]⟩ : Shape).Idx → EReal :=
  fun i => max (lin h hn ws wn b i) 0

/-- Row `r` of the layer needs row `r` of the two tables only: if a tile's entries along row `y 0` are the tables' entries
    along row `e 0`, and the weights and bias it holds at column `y 1` are the full ones at column `e 1`, then the layer
    of the tile at `y` is the layer of the tables at `e`. -/
theorem lin_of_tiles {N D n : Nat} (h hn : (⟨2, ![N, 128]⟩ : Shape).Idx → EReal) (ws wn : (⟨2, ![128, D]⟩ : Shape).Idx → EReal)
    (b : (⟨1, ![D]⟩ : Shape).Idx → EReal) (x0 x1 : (⟨2, ![n, 128]⟩ : Shape).Idx → EReal)
    (x2 x3 : (⟨2, ![128, D]⟩ : Shape).Idx → EReal) (x4 : (⟨1, ![D]⟩ : Shape).Idx → EReal)
    (y : (⟨2, ![n, D]⟩ : Shape).Idx) (e : (⟨2, ![N, D]⟩ : Shape).Idx)
    (h0 : ∀ k : Fin 128, x0 (ix2 (y 0) k) = h (ix2 (e 0) k)) (h1 : ∀ k : Fin 128, x1 (ix2 (y 0) k) = hn (ix2 (e 0) k))
    (h2 : ∀ k : Fin 128, x2 (ix2 k (y 1)) = ws (ix2 k (e 1))) (h3 : ∀ k : Fin 128, x3 (ix2 k (y 1)) = wn (ix2 k (e 1)))
    (h4 : x4 (ix1 (y 1)) = b (ix1 (e 1))) :
    lin x0 x1 x2 x3 x4 y = lin h hn ws wn b e := by
  unfold lin
  rw [Finset.sum_congr rfl fun k _ => congrArg₂ (· * ·) (h0 k) (h2 k),
    Finset.sum_congr rfl fun k _ => congrArg₂ (· * ·) (h1 k) (h3 k), h4]

/-- The same for the rectified layer. -/
theorem linRelu_of_tiles {N D n : Nat} (h hn : (⟨2, ![N, 128]⟩ : Shape).Idx → EReal) (ws wn : (⟨2, ![128, D]⟩ : Shape).Idx → EReal)
    (b : (⟨1, ![D]⟩ : Shape).Idx → EReal) (x0 x1 : (⟨2, ![n, 128]⟩ : Shape).Idx → EReal)
    (x2 x3 : (⟨2, ![128, D]⟩ : Shape).Idx → EReal) (x4 : (⟨1, ![D]⟩ : Shape).Idx → EReal)
    (y : (⟨2, ![n, D]⟩ : Shape).Idx) (e : (⟨2, ![N, D]⟩ : Shape).Idx)
    (h0 : ∀ k : Fin 128, x0 (ix2 (y 0) k) = h (ix2 (e 0) k)) (h1 : ∀ k : Fin 128, x1 (ix2 (y 0) k) = hn (ix2 (e 0) k))
    (h2 : ∀ k : Fin 128, x2 (ix2 k (y 1)) = ws (ix2 k (e 1))) (h3 : ∀ k : Fin 128, x3 (ix2 k (y 1)) = wn (ix2 k (e 1)))
    (h4 : x4 (ix1 (y 1)) = b (ix1 (e 1))) :
    linRelu x0 x1 x2 x3 x4 y = linRelu h hn ws wn b e := by
  unfold linRelu
  rw [lin_of_tiles h hn ws wn b x0 x1 x2 x3 x4 y e h0 h1 h2 h3 h4]

/-- A product `x · w` of an `N × 128` by a `128 × D` matrix, given by a dimension record that contracts one axis of
    extent 128 — the left operand's axis 1 against the right operand's axis 0 — and keeps the left operand's rows and
    the right operand's columns: its sum over the record's contraction positions is the sum over `k < 128` of
    `x[r,k] · w[k,c]`.  The four hypotheses say which coordinate each operand index takes from the entry and which
    from the contraction position. -/
theorem contract_rows_cols {N D : Nat} (d : DotDims ⟨2, ![N, 128]⟩ ⟨2, ![128, D]⟩ ⟨2, ![N, D]⟩)
    (hr : d.contr.rank = 1) (hs : d.contr.size ⟨0, by omega⟩ = 128)
    (hl0 : ∀ (j : (⟨2, ![N, D]⟩ : Shape).Idx) (q : d.contr.Idx), (d.lhsIdx j q 0).val = (j 0).val)
    (hl1 : ∀ (j : (⟨2, ![N, D]⟩ : Shape).Idx) (q : d.contr.Idx), (d.lhsIdx j q 1).val = (q ⟨0, by omega⟩).val)
    (hr0 : ∀ (j : (⟨2, ![N, D]⟩ : Shape).Idx) (q : d.contr.Idx), (d.rhsIdx j q 0).val = (q ⟨0, by omega⟩).val)
    (hr1 : ∀ (j : (⟨2, ![N, D]⟩ : Shape).Idx) (q : d.contr.Idx), (d.rhsIdx j q 1).val = (j 1).val)
    (x : (⟨2, ![N, 128]⟩ : Shape).Idx → EReal) (w : (⟨2, ![128, D]⟩ : Shape).Idx → EReal)
    (j : (⟨2, ![N, D]⟩ : Shape).Idx) :
    ∑ q : d.contr.Idx, x (d.lhsIdx j q) * w (d.rhsIdx j q) = ∑ k : Fin 128, x (ix2 (j 0) k) * w (ix2 k (j 1)) := by
  rw [← Equiv.sum_comp (contrEquiv1 d 128 hr hs).symm]
  refine Finset.sum_congr rfl fun k _ => ?_
  have hk := contrEquiv1_symm_val d 128 hr hs k
  have el : d.lhsIdx j ((contrEquiv1 d 128 hr hs).symm k) = ix2 (j 0) k := funext fun a => Fin.ext (by
    match a with
    | ⟨0, _⟩ => exact hl0 _ _
    | ⟨1, _⟩ => exact (hl1 _ _).trans hk)
  have er : d.rhsIdx j ((contrEquiv1 d 128 hr hs).symm k) = ix2 k (j 1) := funext fun a => Fin.ext (by
    match a with
    | ⟨0, _⟩ => exact (hr0 _ _).trans hk
    | ⟨1, _⟩ => exact hr1 _ _)
  exact congrArg₂ (· * ·) (congrArg x el) (congrArg w er)

end Cert.Sage

end
-- ==== Proof.KernelBody.lean ====
/-
  What the dense kernel's body computes from the tiles it loads, read entry by entry over the extended reals.

  The body loads a tile of 5000 rows of the node table and of the neighbour means, the two weight matrices
  and the bias, narrows the four matrices to bf16 (the identity on exact values), multiplies on the matrix unit
  into a zero accumulator (so each product is just the sum of the 128 products along the contracted axis),
  adds the two products, adds the bias broadcast along the rows, and — in the first two layers — takes the
  maximum with zero.  Entry `(r, c)` of what it stores is therefore the layer's entry `Sage.lin` (or
  `Sage.linRelu`) of the loaded tiles, for each of the three kernels.
-/
import proofs.«102101_j77575699300503_1_alg».proof.Proof.Gen.KernelIdeal.Skeleton
import proofs.«102101_j77575699300503_1_alg».proof.Proof.DenseSpec
import Idealize.ShloMosaic.Lib.Pipeline.Value
import Idealize.ShloMosaic.Lib.ValueLayout

noncomputable section

namespace Cert.Sage.Body

open Idealize.ShloMosaic Idealize.ShloMosaic.ValueIdx Cert.KernelIdeal Cert.KernelIdeal.Gen

/-! ## The two matrix-unit dimension records: which coordinate each operand index takes -/

theorem tile128_lhs0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem tile128_lhs1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem tile128_rhs0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem tile128_rhs1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem tile40_lhs0 (j : S5000x40.Idx) (q : dot_S5000x128_S128x40_S5000x40_1_0_0_1_n_n.contr.Idx) :
    (dot_S5000x128_S128x40_S5000x40_1_0_0_1_n_n.lhsIdx j q 0).val = (j 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem tile40_lhs1 (j : S5000x40.Idx) (q : dot_S5000x128_S128x40_S5000x40_1_0_0_1_n_n.contr.Idx) :
    (dot_S5000x128_S128x40_S5000x40_1_0_0_1_n_n.lhsIdx j q 1).val = (q ⟨0, by decide⟩).val :=
  dot_S5000x128_S128x40_S5000x40_1_0_0_1_n_n.lhsIdx_val_of_single rfl j q
theorem tile40_rhs0 (j : S5000x40.Idx) (q : dot_S5000x128_S128x40_S5000x40_1_0_0_1_n_n.contr.Idx) :
    (dot_S5000x128_S128x40_S5000x40_1_0_0_1_n_n.rhsIdx j q 0).val = (q ⟨0, by decide⟩).val :=
  dot_S5000x128_S128x40_S5000x40_1_0_0_1_n_n.rhsIdx_val_of_single rfl j q
theorem tile40_rhs1 (j : S5000x40.Idx) (q : dot_S5000x128_S128x40_S5000x40_1_0_0_1_n_n.contr.Idx) :
    (dot_S5000x128_S128x40_S5000x40_1_0_0_1_n_n.rhsIdx j q 1).val = (j 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- A tile times a 128 × 128 weight matrix on the matrix unit, into zero: the sum over the 128 features. -/
theorem tile_matmul128 (x : FVec Ideal S5000x128 .bf16) (w : FVec Ideal S128x128 .bf16) (j : S5000x128.Idx) :
    matmul (F := Ideal) dot_S5000x128_S128x128_S5000x128_1_0_0_1_n_n none x w (constant S5000x128 .f32 0x00000000#32) j
      = ∑ k : Fin 128, x (ix2 (j 0) k) * w (ix2 k (j 1)) :=
  (Ideal.matmul_constant_zero_apply _ _ x w j).trans
    (contract_rows_cols dot_S5000x128_S128x128_S5000x128_1_0_0_1_n_n rfl rfl tile128_lhs0 tile128_lhs1 tile128_rhs0 tile128_rhs1 x w j)

/-- A tile times a 128 × 40 weight matrix on the matrix unit, into zero: the sum over the 128 features. -/
theorem tile_matmul40 (x : FVec Ideal S5000x128 .bf16) (w : FVec Ideal S128x40 .bf16) (j : S5000x40.Idx) :
    matmul (F := Ideal) dot_S5000x128_S128x40_S5000x40_1_0_0_1_n_n none x w (constant S5000x40 .f32 0x00000000#32) j
      = ∑ k : Fin 128, x (ix2 (j 0) k) * w (ix2 k (j 1)) :=
  (Ideal.matmul_constant_zero_apply _ _ x w j).trans
    (contract_rows_cols dot_S5000x128_S128x40_S5000x40_1_0_0_1_n_n rfl rfl tile40_lhs0 tile40_lhs1 tile40_rhs0 tile40_rhs1 x w j)

/-- The bias as the body lays it out — a vector of 128 made a one-row matrix and repeated along 5000 rows — read at
    `(r, c)` is the bias at `c`. -/
theorem bias_rows128 (b : FVec Ideal S128 .f32) (j : S5000x128.Idx) :
    broadcastTo S5000x128 (shapeCast S1x128 (shapeCast S1x128 b shapeCasts_S128_S1x128) shapeCasts_S1x128_S1x128) broadcasts_S1x128_S5000x128 j
      = b (ix1 (j 1)) := by
  rw [shapeCast_self]
  obtain ⟨r, c, rfl⟩ : ∃ (r : Fin 5000) (c : Fin 128), j = ix2 r c := ⟨j 0, j 1, eq_ix2 j⟩
  rw [broadcastTo_1b_ab_apply, shapeCast_a_1a_apply]

theorem bias_rows40 (b : FVec Ideal S40 .f32) (j : S5000x40.Idx) :
    broadcastTo S5000x40 (shapeCast S1x40 (shapeCast S1x40 b shapeCasts_S40_S1x40) shapeCasts_S1x40_S1x40) broadcasts_S1x40_S5000x40 j
      = b (ix1 (j 1)) := by
  rw [shapeCast_self]
  obtain ⟨r, c, rfl⟩ : ∃ (r : Fin 5000) (c : Fin 40), j = ix2 r c := ⟨j 0, j 1, eq_ix2 j⟩
  rw [broadcastTo_1b_ab_apply, shapeCast_a_1a_apply]

/-! ## The three bodies -/

/-- Layer 0's body stores the rectified layer of its tiles. -/
theorem body0_apply (x0 x1 : Vec Ideal S5000x128 .f32) (x2 x3 : Vec Ideal S128x128 .f32) (x4 : Vec Ideal S128 .f32) (j : S5000x128.Idx) :
    k0_pay1 (F := Ideal) x0 x1 x2 x3 x4 j = linRelu x0 x1 x2 x3 x4 j := by
  unfold k0_pay1
  show max ((matmul (F := Ideal) dot_S5000x128_S128x128_S5000x128_1_0_0_1_n_n none _ _ (constant S5000x128 .f32 0x00000000#32) j
      + matmul (F := Ideal) dot_S5000x128_S128x128_S5000x128_1_0_0_1_n_n none _ _ (constant S5000x128 .f32 0x00000000#32) j)
      + broadcastTo S5000x128 (shapeCast S1x128 (shapeCast S1x128 x4 shapeCasts_S128_S1x128) shapeCasts_S1x128_S1x128) broadcasts_S1x128_S5000x128 j)
      (Ideal.ofBits .f32 0x00000000#32) = _
  rw [tile_matmul128, tile_matmul128, bias_rows128, Ideal.ofBits_zero_f32, shapeCast_self]
  rfl

/-- Layer 1's body stores the rectified layer of its tiles. -/
theorem body1_apply (x0 x1 : Vec Ideal S5000x128 .f32) (x2 x3 : Vec Ideal S128x128 .f32) (x4 : Vec Ideal S128 .f32) (j : S5000x128.Idx) :
    k1_pay1 (F := Ideal) x0 x1 x2 x3 x4 j = linRelu x0 x1 x2 x3 x4 j := by
  unfold k1_pay1
  show max ((matmul (F := Ideal) dot_S5000x128_S128x128_S5000x128_1_0_0_1_n_n none _ _ (constant S5000x128 .f32 0x00000000#32) j
      + matmul (F := Ideal) dot_S5000x128_S128x128_S5000x128_1_0_0_1_n_n none _ _ (constant S5000x128 .f32 0x00000000#32) j)
      + broadcastTo S5000x128 (shapeCast S1x128 (shapeCast S1x128 x4 shapeCasts_S128_S1x128) shapeCasts_S1x128_S1x128) broadcasts_S1x128_S5000x128 j)
      (Ideal.ofBits .f32 0x00000000#32) = _
  rw [tile_matmul128, tile_matmul128, bias_rows128, Ideal.ofBits_zero_f32, shapeCast_self, shapeCast_self]
  rfl

/-- Layer 2's body stores the layer of its tiles, not rectified. -/
theorem body2_apply (x0 x1 : Vec Ideal S5000x128 .f32) (x2 x3 : Vec Ideal S128x40 .f32) (x4 : Vec Ideal S40 .f32) (j : S5000x40.Idx) :
    k2_pay1 (F := Ideal) x0 x1 x2 x3 x4 j = lin x0 x1 x2 x3 x4 j := by
  unfold k2_pay1
  show (matmul (F := Ideal) dot_S5000x128_S128x40_S5000x40_1_0_0_1_n_n none _ _ (constant S5000x40 .f32 0x00000000#32) j
      + matmul (F := Ideal) dot_S5000x128_S128x40_S5000x40_1_0_0_1_n_n none _ _ (constant S5000x40 .f32 0x00000000#32) j)
      + broadcastTo S5000x40 (shapeCast S1x40 (shapeCast S1x40 x4 shapeCasts_S40_S1x40) shapeCasts_S1x40_S1x40) broadcasts_S1x40_S5000x40 j = _
  rw [tile_matmul40, tile_matmul40, bias_rows40, shapeCast_self, shapeCast_self]
  rfl

end Cert.Sage.Body

end
-- ==== Proof.Region0.lean ====
/-
  The array the first dense kernel leaves, as one function of the arrays it finds.

  The kernel runs over ten grid points.  At point `t` it is handed rows `5000·t … 5000·t + 4999` of the node table and
  of the neighbour means, the whole weight matrices and the whole bias, and what its body stores is written back to
  the same rows of the result.  The body's value at an entry is the layer's entry computed from the tile
  (`Body.body0_apply`); a layer's row depends on the same row of the two tables only (`lin_of_tiles`); so tile `t` of
  the result is tile `t` of the layer of the WHOLE tables, and since the ten tiles cover all 50000 rows the result array
  is that layer.  Everything is stated at the contents `V` the kernel is entered with, whatever they are.
-/
import proofs.«102101_j77575699300503_1_alg».proof.Proof.Gen.KernelIdeal.Frame
import proofs.«102101_j77575699300503_1_alg».proof.Proof.KernelBody
import Idealize.ShloMosaic.Lib.Pipeline.Value

set_option maxRecDepth 16384

noncomputable section

namespace Cert.Sage.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem origin2 : (![0, 0] : Fin 2 → Nat) = fun _ => 0 := funext fun a => by fin_cases a <;> rfl
theorem origin1 : (![0] : Fin 1 → Nat) = fun _ => 0 := funext fun a => by fin_cases a; rfl

variable (V : (c : Dev nD) → (b : Ref sig .tc) → Buf (Elt Ideal) ((c : Thread nD τ).loc b))

/-! ## Layer 0: the array the first kernel leaves -/

/-- Where the tiles of layer 0 sit: at grid point `t` the node table, the neighbour means and the result move to
    tile `t` of rows; the weights and the bias stay whole. -/
theorem tiles0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The layer-0 function of the arrays as the kernel finds them. -/
abbrev layer0 (c : Dev nD) : Vec Ideal S50000x128 .f32 :=
  linRelu (N := 50000) (D := 128) (V c main_arg0) (V c main_v18) (V c main_arg3) (V c main_arg4) (V c main_arg5)

/-- What grid point `t` writes back is tile `t` of that function: the body's payload at an entry is the layer of the
    loaded tiles (`Body.body0_apply`), and the tiles' rows are the tables' rows `5000·t + r`. -/
theorem written0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero origin2]
  simp only [View.ld_unit_zero (S := S5000x128) origin2, View.ld_unit_zero (S := S128x128) origin2, View.ld_unit_zero (S := S128) origin1]
  obtain ⟨e00, e01, e10, e11, e20, e21, e30, e31, e40, e50, e51⟩ := tiles0 t
  funext y
  show k0_pay1 (F := Ideal) (iblk0 V c 0 t) (iblk0 V c 1 t) (iblk0 V c 2 t) (iblk0 V c 3 t) (iblk0 V c 4 t) y
    = layer0 V c (((cfg0.win 5).blk t).view.emb y)
  refine (Body.body0_apply (iblk0 V c 0 t) (iblk0 V c 1 t) (iblk0 V c 2 t) (iblk0 V c 3 t) (iblk0 V c 4 t) y).trans ?_
  have hy0 : (y 0).val < 5000 := (y 0).isLt
  have hy1 : (y 1).val < 128 := (y 1).isLt
  refine linRelu_of_tiles (N := 50000) (D := 128) (n := 5000) (V c main_arg0) (V c main_v18) (V c main_arg3) (V c main_arg4) (V c main_arg5) _ _ _ _ _ y _ ?_ ?_ ?_ ?_ ?_
  · intro k
    show V c main_arg0 (((cfg0.win 0).blk t).view.emb (ix2 (y 0) k)) = V c main_arg0 (ix2 ((((cfg0.win 5).blk t).view.emb y) 0) k)
    refine congrArg (V c main_arg0) (funext fun a => Fin.ext ?_)
    match a with
    | ⟨0, _⟩ => show win0_0.index t (0 : Fin 2) * 5000 + 1 * (y 0).val = win0_5.index t (0 : Fin 2) * 5000 + 1 * (y 0).val; omega
    | ⟨1, _⟩ => show win0_0.index t (1 : Fin 2) * 128 + 1 * k.val = k.val; omega
  · intro k
    show V c main_v18 (((cfg0.win 1).blk t).view.emb (ix2 (y 0) k)) = V c main_v18 (ix2 ((((cfg0.win 5).blk t).view.emb y) 0) k)
    refine congrArg (V c main_v18) (funext fun a => Fin.ext ?_)
    match a with
    | ⟨0, _⟩ => show win0_1.index t (0 : Fin 2) * 5000 + 1 * (y 0).val = win0_5.index t (0 : Fin 2) * 5000 + 1 * (y 0).val; omega
    | ⟨1, _⟩ => show win0_1.index t (1 : Fin 2) * 128 + 1 * k.val = k.val; omega
  · intro k
    show V c main_arg3 (((cfg0.win 2).blk t).view.emb (ix2 k (y 1))) = V c main_arg3 (ix2 k ((((cfg0.win 5).blk t).view.emb y) 1))
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 128 + 1 * (y 1).val = win0_5.index t (1 : Fin 2) * 128 + 1 * (y 1).val; omega
  · intro k
    show V c main_arg4 (((cfg0.win 3).blk t).view.emb (ix2 k (y 1))) = V c main_arg4 (ix2 k ((((cfg0.win 5).blk t).view.emb y) 1))
    refine congrArg (V c main_arg4) (funext fun a => Fin.ext ?_)
    match a with
    | ⟨0, _⟩ => show win0_3.index t (0 : Fin 2) * 128 + 1 * k.val = k.val; omega
    | ⟨1, _⟩ => show win0_3.index t (1 : Fin 2) * 128 + 1 * (y 1).val = win0_5.index t (1 : Fin 2) * 128 + 1 * (y 1).val; omega
  · show V c main_arg5 (((cfg0.win 4).blk t).view.emb (ix1 (y 1))) = V c main_arg5 (ix1 ((((cfg0.win 5).blk t).view.emb y) 1))
    refine congrArg (V c main_arg5) (funext fun a => Fin.ext ?_)
    match a with
    | ⟨0, _⟩ => show win0_4.index t (0 : Fin 1) * 128 + 1 * (y 1).val = win0_5.index t (1 : Fin 2) * 128 + 1 * (y 1).val; omega

/-- An entry of the result array lies in grid point `t`'s tile iff its row is one of the tile's 5000 rows. -/
theorem in_tile0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v19).slice (win0_5.rect t)).set ↔ _
  rw [View.set_slice_whole, Rect.mem_set_unit]
  exact Iff.rfl

/-- The ten tiles cover the array: row `r` is in tile `r / 5000`. -/
theorem tiled0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, e50, e51⟩ := tiles0 t
  have ht : t.val = (i 0).val / 5000 := rfl
  refine ⟨t, flush0_5 t, ?_⟩
  rw [in_tile0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY layer 0's kernel leaves is the layer's function of the arrays it found. -/
theorem array0 (c : Dev nD) : (dat0 V c).arrAt 5 cfg0.N = layer0 V c :=
  (dat0 V c).arrAt_eq_of_cover 5 (layer0 V c) (fun t _ => written0 V c t) tiled0

end Cert.Sage.Region0

end
-- ==== Proof.Region1.lean ====
/-
  The array the second dense kernel leaves, as one function of the arrays it finds.

  The kernel runs over ten grid points.  At point `t` it is handed rows `5000·t … 5000·t + 4999` of the node table and
  of the neighbour means, the whole weight matrices and the whole bias, and what its body stores is written back to
  the same rows of the result.  The body's value at an entry is the layer's entry computed from the tile
  (`Body.body1_apply`); a layer's row depends on the same row of the two tables only (`lin_of_tiles`); so tile `t` of
  the result is tile `t` of the layer of the WHOLE tables, and since the ten tiles cover all 50000 rows the result array
  is that layer.  Everything is stated at the contents `V` the kernel is entered with, whatever they are.
-/
import proofs.«102101_j77575699300503_1_alg».proof.Proof.Gen.KernelIdeal.Frame
import proofs.«102101_j77575699300503_1_alg».proof.Proof.KernelBody
import Idealize.ShloMosaic.Lib.Pipeline.Value

set_option maxRecDepth 16384

noncomputable section

namespace Cert.Sage.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem origin2 : (![0, 0] : Fin 2 → Nat) = fun _ => 0 := funext fun a => by fin_cases a <;> rfl
theorem origin1 : (![0] : Fin 1 → Nat) = fun _ => 0 := funext fun a => by fin_cases a; rfl

variable (V : (c : Dev nD) → (b : Ref sig .tc) → Buf (Elt Ideal) ((c : Thread nD τ).loc b))

/-! ## Layer 1: the array the second kernel leaves -/

/-- Where the tiles of layer 1 sit: at grid point `t` the node table, the neighbour means and the result move to
    tile `t` of rows; the weights and the bias stay whole. -/
theorem tiles1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The layer-1 function of the arrays as the kernel finds them. -/
abbrev layer1 (c : Dev nD) : Vec Ideal S50000x128 .f32 :=
  linRelu (N := 50000) (D := 128) (V c main_v19) (V c main_v38) (V c main_arg6) (V c main_arg7) (V c main_arg8)

/-- What grid point `t` writes back is tile `t` of that function: the body's payload at an entry is the layer of the
    loaded tiles (`Body.body1_apply`), and the tiles' rows are the tables' rows `5000·t + r`. -/
theorem written1 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero origin2]
  simp only [View.ld_unit_zero (S := S5000x128) origin2, View.ld_unit_zero (S := S128x128) origin2, View.ld_unit_zero (S := S128) origin1]
  obtain ⟨e00, e01, e10, e11, e20, e21, e30, e31, e40, e50, e51⟩ := tiles1 t
  funext y
  show k1_pay1 (F := Ideal) (iblk1 V c 0 t) (iblk1 V c 1 t) (iblk1 V c 2 t) (iblk1 V c 3 t) (iblk1 V c 4 t) y
    = layer1 V c (((cfg1.win 5).blk t).view.emb y)
  refine (Body.body1_apply (iblk1 V c 0 t) (iblk1 V c 1 t) (iblk1 V c 2 t) (iblk1 V c 3 t) (iblk1 V c 4 t) y).trans ?_
  have hy0 : (y 0).val < 5000 := (y 0).isLt
  have hy1 : (y 1).val < 128 := (y 1).isLt
  refine linRelu_of_tiles (N := 50000) (D := 128) (n := 5000) (V c main_v19) (V c main_v38) (V c main_arg6) (V c main_arg7) (V c main_arg8) _ _ _ _ _ y _ ?_ ?_ ?_ ?_ ?_
  · intro k
    show V c main_v19 (((cfg1.win 0).blk t).view.emb (ix2 (y 0) k)) = V c main_v19 (ix2 ((((cfg1.win 5).blk t).view.emb y) 0) k)
    refine congrArg (V c main_v19) (funext fun a => Fin.ext ?_)
    match a with
    | ⟨0, _⟩ => show win1_0.index t (0 : Fin 2) * 5000 + 1 * (y 0).val = win1_5.index t (0 : Fin 2) * 5000 + 1 * (y 0).val; omega
    | ⟨1, _⟩ => show win1_0.index t (1 : Fin 2) * 128 + 1 * k.val = k.val; omega
  · intro k
    show V c main_v38 (((cfg1.win 1).blk t).view.emb (ix2 (y 0) k)) = V c main_v38 (ix2 ((((cfg1.win 5).blk t).view.emb y) 0) k)
    refine congrArg (V c main_v38) (funext fun a => Fin.ext ?_)
    match a with
    | ⟨0, _⟩ => show win1_1.index t (0 : Fin 2) * 5000 + 1 * (y 0).val = win1_5.index t (0 : Fin 2) * 5000 + 1 * (y 0).val; omega
    | ⟨1, _⟩ => show win1_1.index t (1 : Fin 2) * 128 + 1 * k.val = k.val; omega
  · intro k
    show V c main_arg6 (((cfg1.win 2).blk t).view.emb (ix2 k (y 1))) = V c main_arg6 (ix2 k ((((cfg1.win 5).blk t).view.emb y) 1))
    refine congrArg (V c main_arg6) (funext fun a => Fin.ext ?_)
    match a with
    | ⟨0, _⟩ => show win1_2.index t (0 : Fin 2) * 128 + 1 * k.val = k.val; omega
    | ⟨1, _⟩ => show win1_2.index t (1 : Fin 2) * 128 + 1 * (y 1).val = win1_5.index t (1 : Fin 2) * 128 + 1 * (y 1).val; omega
  · intro k
    show V c main_arg7 (((cfg1.win 3).blk t).view.emb (ix2 k (y 1))) = V c main_arg7 (ix2 k ((((cfg1.win 5).blk t).view.emb y) 1))
    refine congrArg (V c main_arg7) (funext fun a => Fin.ext ?_)
    match a with
    | ⟨0, _⟩ => show win1_3.index t (0 : Fin 2) * 128 + 1 * k.val = k.val; omega
    | ⟨1, _⟩ => show win1_3.index t (1 : Fin 2) * 128 + 1 * (y 1).val = win1_5.index t (1 : Fin 2) * 128 + 1 * (y 1).val; omega
  · show V c main_arg8 (((cfg1.win 4).blk t).view.emb (ix1 (y 1))) = V c main_arg8 (ix1 ((((cfg1.win 5).blk t).view.emb y) 1))
    refine congrArg (V c main_arg8) (funext fun a => Fin.ext ?_)
    match a with
    | ⟨0, _⟩ => show win1_4.index t (0 : Fin 1) * 128 + 1 * (y 1).val = win1_5.index t (1 : Fin 2) * 128 + 1 * (y 1).val; omega

/-- An entry of the result array lies in grid point `t`'s tile iff its row is one of the tile's 5000 rows. -/
theorem in_tile1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- The ten tiles cover the array: row `r` is in tile `r / 5000`. -/
theorem tiled1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, e50, e51⟩ := tiles1 t
  have ht : t.val = (i 0).val / 5000 := rfl
  refine ⟨t, flush1_5 t, ?_⟩
  rw [in_tile1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY layer 1's kernel leaves is the layer's function of the arrays it found. -/
theorem array1 (c : Dev nD) : (dat1 V c).arrAt 5 cfg1.N = layer1 V c :=
  (dat1 V c).arrAt_eq_of_cover 5 (layer1 V c) (fun t _ => written1 V c t) tiled1

end Cert.Sage.Region1

end
-- ==== Proof.Region2.lean ====
/-
  The array the third dense kernel leaves, as one function of the arrays it finds.

  The kernel runs over ten grid points.  At point `t` it is handed rows `5000·t … 5000·t + 4999` of the node table and
  of the neighbour means, the whole weight matrices and the whole bias, and what its body stores is written back to
  the same rows of the result.  The body's value at an entry is the layer's entry computed from the tile
  (`Body.body2_apply`); a layer's row depends on the same row of the two tables only (`lin_of_tiles`); so tile `t` of
  the result is tile `t` of the layer of the WHOLE tables, and since the ten tiles cover all 50000 rows the result array
  is that layer.  Everything is stated at the contents `V` the kernel is entered with, whatever they are.
-/
import proofs.«102101_j77575699300503_1_alg».proof.Proof.Gen.KernelIdeal.Frame
import proofs.«102101_j77575699300503_1_alg».proof.Proof.KernelBody
import Idealize.ShloMosaic.Lib.Pipeline.Value

set_option maxRecDepth 16384

noncomputable section

namespace Cert.Sage.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem origin2 : (![0, 0] : Fin 2 → Nat) = fun _ => 0 := funext fun a => by fin_cases a <;> rfl
theorem origin1 : (![0] : Fin 1 → Nat) = fun _ => 0 := funext fun a => by fin_cases a; rfl

variable (V : (c : Dev nD) → (b : Ref sig .tc) → Buf (Elt Ideal) ((c : Thread nD τ).loc b))

/-! ## Layer 2: the array the third kernel leaves -/

/-- Where the tiles of layer 2 sit: at grid point `t` the node table, the neighbour means and the result move to
    tile `t` of rows; the weights and the bias stay whole. -/
theorem tiles2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- The layer-2 function of the arrays as the kernel finds them. -/
abbrev layer2 (c : Dev nD) : Vec Ideal S50000x40 .f32 :=
  lin (N := 50000) (D := 40) (V c main_v39) (V c main_v58) (V c main_arg9) (V c main_arg10) (V c main_arg11)

/-- What grid point `t` writes back is tile `t` of that function: the body's payload at an entry is the layer of the
    loaded tiles (`Body.body2_apply`), and the tiles' rows are the tables' rows `5000·t + r`. -/
theorem written2 (c : Dev nD) (t : Fin cfg2.N) :
    (dat2 V c).flushed 5 t = ((cfg2.win 5).blk t).view.read (Elt Ideal) (layer2 V c) := by
  show (cfg2.win 5).cut (grid2.coords t) ((dat2 V c).after 5 t) = _
  rw [after2_5]
  unfold out2_5
  rw [View.canon_unit_zero origin2]
  simp only [View.ld_unit_zero (S := S5000x128) origin2, View.ld_unit_zero (S := S128x40) origin2, View.ld_unit_zero (S := S40) origin1]
  obtain ⟨e00, e01, e10, e11, e20, e21, e30, e31, e40, e50, e51⟩ := tiles2 t
  funext y
  show k2_pay1 (F := Ideal) (iblk2 V c 0 t) (iblk2 V c 1 t) (iblk2 V c 2 t) (iblk2 V c 3 t) (iblk2 V c 4 t) y
    = layer2 V c (((cfg2.win 5).blk t).view.emb y)
  refine (Body.body2_apply (iblk2 V c 0 t) (iblk2 V c 1 t) (iblk2 V c 2 t) (iblk2 V c 3 t) (iblk2 V c 4 t) y).trans ?_
  have hy0 : (y 0).val < 5000 := (y 0).isLt
  have hy1 : (y 1).val < 40 := (y 1).isLt
  refine lin_of_tiles (N := 50000) (D := 40) (n := 5000) (V c main_v39) (V c main_v58) (V c main_arg9) (V c main_arg10) (V c main_arg11) _ _ _ _ _ y _ ?_ ?_ ?_ ?_ ?_
  · intro k
    show V c main_v39 (((cfg2.win 0).blk t).view.emb (ix2 (y 0) k)) = V c main_v39 (ix2 ((((cfg2.win 5).blk t).view.emb y) 0) k)
    refine congrArg (V c main_v39) (funext fun a => Fin.ext ?_)
    match a with
    | ⟨0, _⟩ => show win2_0.index t (0 : Fin 2) * 5000 + 1 * (y 0).val = win2_5.index t (0 : Fin 2) * 5000 + 1 * (y 0).val; omega
    | ⟨1, _⟩ => show win2_0.index t (1 : Fin 2) * 128 + 1 * k.val = k.val; omega
  · intro k
    show V c main_v58 (((cfg2.win 1).blk t).view.emb (ix2 (y 0) k)) = V c main_v58 (ix2 ((((cfg2.win 5).blk t).view.emb y) 0) k)
    refine congrArg (V c main_v58) (funext fun a => Fin.ext ?_)
    match a with
    | ⟨0, _⟩ => show win2_1.index t (0 : Fin 2) * 5000 + 1 * (y 0).val = win2_5.index t (0 : Fin 2) * 5000 + 1 * (y 0).val; omega
    | ⟨1, _⟩ => show win2_1.index t (1 : Fin 2) * 128 + 1 * k.val = k.val; omega
  · intro k
    show V c main_arg9 (((cfg2.win 2).blk t).view.emb (ix2 k (y 1))) = V c main_arg9 (ix2 k ((((cfg2.win 5).blk t).view.emb y) 1))
    refine congrArg (V c main_arg9) (funext fun a => Fin.ext ?_)
    match a with
    | ⟨0, _⟩ => show win2_2.index t (0 : Fin 2) * 128 + 1 * k.val = k.val; omega
    | ⟨1, _⟩ => show win2_2.index t (1 : Fin 2) * 40 + 1 * (y 1).val = win2_5.index t (1 : Fin 2) * 40 + 1 * (y 1).val; omega
  · intro k
    show V c main_arg10 (((cfg2.win 3).blk t).view.emb (ix2 k (y 1))) = V c main_arg10 (ix2 k ((((cfg2.win 5).blk t).view.emb y) 1))
    refine congrArg (V c main_arg10) (funext fun a => Fin.ext ?_)
    match a with
    | ⟨0, _⟩ => show win2_3.index t (0 : Fin 2) * 128 + 1 * k.val = k.val; omega
    | ⟨1, _⟩ => show win2_3.index t (1 : Fin 2) * 40 + 1 * (y 1).val = win2_5.index t (1 : Fin 2) * 40 + 1 * (y 1).val; omega
  · show V c main_arg11 (((cfg2.win 4).blk t).view.emb (ix1 (y 1))) = V c main_arg11 (ix1 ((((cfg2.win 5).blk t).view.emb y) 1))
    refine congrArg (V c main_arg11) (funext fun a => Fin.ext ?_)
    match a with
    | ⟨0, _⟩ => show win2_4.index t (0 : Fin 1) * 40 + 1 * (y 1).val = win2_5.index t (1 : Fin 2) * 40 + 1 * (y 1).val; omega

/-- An entry of the result array lies in grid point `t`'s tile iff its row is one of the tile's 5000 rows. -/
theorem in_tile2 (t : Fin cfg2.N) (i : S50000x40.Idx) :
    i ∈ ((cfg2.win 5).blk t).view.set ↔ ∀ a : Fin 2, win2_5.index t a * S5000x40.size a ≤ (i a).val ∧ (i a).val < win2_5.index t a * S5000x40.size a + S5000x40.size a := by
  show i ∈ ((View.whole main_v59).slice (win2_5.rect t)).set ↔ _
  rw [View.set_slice_whole, Rect.mem_set_unit]
  exact Iff.rfl

/-- The ten tiles cover the array: row `r` is in tile `r / 5000`. -/
theorem tiled2 (i : S50000x40.Idx) : ∃ t : Fin cfg2.N, (cfg2.win 5).flush t = true ∧ i ∈ ((cfg2.win 5).blk t).view.set := by
  have hi0 : (i 0).val < 50000 := (i 0).isLt
  have hi1 : (i 1).val < 40 := (i 1).isLt
  have hN : cfg2.N = 10 := N_2
  let t : Fin cfg2.N := ⟨(i 0).val / 5000, by rw [hN]; omega⟩
  obtain ⟨-, -, -, -, -, -, -, -, -, e50, e51⟩ := tiles2 t
  have ht : t.val = (i 0).val / 5000 := rfl
  refine ⟨t, flush2_5 t, ?_⟩
  rw [in_tile2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 40 ≤ (i 1).val ∧ (i 1).val < win2_5.index t (1 : Fin 2) * 40 + 40; omega

/-- THE ARRAY layer 2's kernel leaves is the layer's function of the arrays it found. -/
theorem array2 (c : Dev nD) : (dat2 V c).arrAt 5 cfg2.N = layer2 V c :=
  (dat2 V c).arrAt_eq_of_cover 5 (layer2 V c) (fun t _ => written2 V c t) tiled2

end Cert.Sage.Region2

end
-- ==== Proof.HostLayer.lean ====
/-
  The reference's layer as host operations on whole arrays, and what those operations compute entry by entry.

  `neighbourMean h src dst` is the mean aggregation: the rows `h[src e]` (a negative `src e` counted from the
  end) summed into row `dst e` for every edge `e`, divided by the number of edges that arrive at the row, or by one
  where none does.  It is kept as ONE opaque function of `h`, `src` and `dst`: the kernel's program applies the
  very same operations on the host, so nothing here ever looks inside the gather or the two scatter-adds.

  `dense128` / `dense40` are the two matrix products, their sum and the bias row added; `rectify` the maximum
  with zero.  Over the extended reals `dense… h hn ws wn b` is `Sage.lin h hn ws wn b` and its rectification is
  `Sage.linRelu h hn ws wn b`: a host matrix product read at an entry is the sum over the contracted axis, and the
  bias, made a one-row matrix and repeated along the rows, reads as the bias at the entry's column.

  `forward` composes the three layers as the reference does.
-/
import proofs.«102101_j77575699300503_1_alg».proof.Proof.Gen.ReferenceIdeal
import proofs.«102101_j77575699300503_1_alg».proof.Proof.DenseSpec
import Idealize.ShloMosaic.Lib.Pipeline.Value

noncomputable section

namespace Cert.Sage.Host

open Idealize.ShloMosaic Idealize.ShloMosaic.ValueIdx Cert.ReferenceIdeal Cert.ReferenceIdeal.Gen

section AnyValues
variable {F : FTy → Type} [FloatOps F]

/-- Mean aggregation of the rows of `h` along the edges `src → dst`, as the host computes it. -/
def neighbourMean (h : (⟨S50000x128, .f32⟩ : BufTy).Contents (Elt F)) (src dst : (⟨S600000, .i32⟩ : BufTy).Contents (Elt F)) :
    (⟨S50000x128, .f32⟩ : BufTy).Contents (Elt F) :=
  Host.divf
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0 dst)
      (Host.gather gather_S50000x128_S600000x1_S600000x128_1_0_n_n_0_1_1128 h
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S600000x1_S600000_n_0_0_1
            (broadcastInDim S50000 ![] bcast_S_S50000 (constant S_ .f32 0x00000000#32))
            (broadcastInDim S600000x1 ![0] bcast_S600000_S600000x1_0 dst)
            (broadcastInDim S600000 ![] bcast_S_S600000 (constant S_ .f32 0x3F800000#32)))
          (broadcastInDim S50000 ![] bcast_S_S50000 (constant S_ .f32 0x3F800000#32)))))

/-- A hidden layer before rectification: `h · ws + hn · wn`, then the bias row added. -/
def dense128 (h hn : (⟨S50000x128, .f32⟩ : BufTy).Contents (Elt F)) (ws wn : (⟨S128x128, .f32⟩ : BufTy).Contents (Elt F))
    (b : (⟨S128, .f32⟩ : BufTy).Contents (Elt F)) : (⟨S50000x128, .f32⟩ : BufTy).Contents (Elt F) :=
  addf
    (addf (Host.dotGeneral dot_S50000x128_S128x128_S50000x128_1_0_0_1_n_n none h ws)
      (Host.dotGeneral dot_S50000x128_S128x128_S50000x128_1_0_0_1_n_n none hn wn))
    (broadcastInDim S50000x128 ![0, 1] bcast_S1x128_S50000x128_0_1 (broadcastInDim S1x128 ![1] bcast_S128_S1x128_1 b))

/-- The output layer: the same with 40 columns. -/
def dense40 (h hn : (⟨S50000x128, .f32⟩ : BufTy).Contents (Elt F)) (ws wn : (⟨S128x40, .f32⟩ : BufTy).Contents (Elt F))
    (b : (⟨S40, .f32⟩ : BufTy).Contents (Elt F)) : (⟨S50000x40, .f32⟩ : BufTy).Contents (Elt F) :=
  addf
    (addf (Host.dotGeneral dot_S50000x128_S128x40_S50000x40_1_0_0_1_n_n none h ws)
      (Host.dotGeneral dot_S50000x128_S128x40_S50000x40_1_0_0_1_n_n none hn wn))
    (broadcastInDim S50000x40 ![0, 1] bcast_S1x40_S50000x40_0_1 (broadcastInDim S1x40 ![1] bcast_S40_S1x40_1 b))

/-- The maximum with zero, entry by entry. -/
def rectify (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- One hidden layer of the network on a node table `h`. -/
def hidden (h : (⟨S50000x128, .f32⟩ : BufTy).Contents (Elt F)) (src dst : (⟨S600000, .i32⟩ : BufTy).Contents (Elt F))
    (ws wn : (⟨S128x128, .f32⟩ : BufTy).Contents (Elt F)) (b : (⟨S128, .f32⟩ : BufTy).Contents (Elt F)) :
    (⟨S50000x128, .f32⟩ : BufTy).Contents (Elt F) :=
  rectify (dense128 h (neighbourMean h src dst) ws wn b)

/-- The three layers in turn. -/
def forward (feat : (⟨S50000x128, .f32⟩ : BufTy).Contents (Elt F)) (src dst : (⟨S600000, .i32⟩ : BufTy).Contents (Elt F))
    (ws0 wn0 : (⟨S128x128, .f32⟩ : BufTy).Contents (Elt F)) (b0 : (⟨S128, .f32⟩ : BufTy).Contents (Elt F))
    (ws1 wn1 : (⟨S128x128, .f32⟩ : BufTy).Contents (Elt F)) (b1 : (⟨S128, .f32⟩ : BufTy).Contents (Elt F))
    (ws2 wn2 : (⟨S128x40, .f32⟩ : BufTy).Contents (Elt F)) (b2 : (⟨S40, .f32⟩ : BufTy).Contents (Elt F)) :
    (⟨S50000x40, .f32⟩ : BufTy).Contents (Elt F) :=
  dense40 (hidden (hidden feat src dst ws0 wn0 b0) src dst ws1 wn1 b1)
    (neighbourMean (hidden (hidden feat src dst ws0 wn0 b0) src dst ws1 wn1 b1) src dst) ws2 wn2 b2

end AnyValues

/-! ## The host's two matrix products: which coordinate each operand index takes -/

theorem full128_lhs0 (j : S50000x128.Idx) (q : dot_S50000x128_S128x128_S50000x128_1_0_0_1_n_n.contr.Idx) :
    (dot_S50000x128_S128x128_S50000x128_1_0_0_1_n_n.lhsIdx j q 0).val = (j 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem full128_lhs1 (j : S50000x128.Idx) (q : dot_S50000x128_S128x128_S50000x128_1_0_0_1_n_n.contr.Idx) :
    (dot_S50000x128_S128x128_S50000x128_1_0_0_1_n_n.lhsIdx j q 1).val = (q ⟨0, by decide⟩).val :=
  dot_S50000x128_S128x128_S50000x128_1_0_0_1_n_n.lhsIdx_val_of_single rfl j q
theorem full128_rhs0 (j : S50000x128.Idx) (q : dot_S50000x128_S128x128_S50000x128_1_0_0_1_n_n.contr.Idx) :
    (dot_S50000x128_S128x128_S50000x128_1_0_0_1_n_n.rhsIdx j q 0).val = (q ⟨0, by decide⟩).val :=
  dot_S50000x128_S128x128_S50000x128_1_0_0_1_n_n.rhsIdx_val_of_single rfl j q
theorem full128_rhs1 (j : S50000x128.Idx) (q : dot_S50000x128_S128x128_S50000x128_1_0_0_1_n_n.contr.Idx) :
    (dot_S50000x128_S128x128_S50000x128_1_0_0_1_n_n.rhsIdx j q 1).val = (j 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

theorem full40_lhs0 (j : S50000x40.Idx) (q : dot_S50000x128_S128x40_S50000x40_1_0_0_1_n_n.contr.Idx) :
    (dot_S50000x128_S128x40_S50000x40_1_0_0_1_n_n.lhsIdx j q 0).val = (j 0).val := by
  unfold DotDims.lhsIdx
  rw [dif_neg (show ¬(0 : Fin S50000x128.rank) ∈ dot_S50000x128_S128x40_S50000x40_1_0_0_1_n_n.lhsBatch by decide), dif_pos (show (0 : Fin S50000x128.rank) ∈ dot_S50000x128_S128x40_S50000x40_1_0_0_1_n_n.lhsNonContracting by decide)]
  rfl
theorem full40_lhs1 (j : S50000x40.Idx) (q : dot_S50000x128_S128x40_S50000x40_1_0_0_1_n_n.contr.Idx) :
    (dot_S50000x128_S128x40_S50000x40_1_0_0_1_n_n.lhsIdx j q 1).val = (q ⟨0, by decide⟩).val :=
  dot_S50000x128_S128x40_S50000x40_1_0_0_1_n_n.lhsIdx_val_of_single rfl j q
theorem full40_rhs0 (j : S50000x40.Idx) (q : dot_S50000x128_S128x40_S50000x40_1_0_0_1_n_n.contr.Idx) :
    (dot_S50000x128_S128x40_S50000x40_1_0_0_1_n_n.rhsIdx j q 0).val = (q ⟨0, by decide⟩).val :=
  dot_S50000x128_S128x40_S50000x40_1_0_0_1_n_n.rhsIdx_val_of_single rfl j q
theorem full40_rhs1 (j : S50000x40.Idx) (q : dot_S50000x128_S128x40_S50000x40_1_0_0_1_n_n.contr.Idx) :
    (dot_S50000x128_S128x40_S50000x40_1_0_0_1_n_n.rhsIdx j q 1).val = (j 1).val := by
  unfold DotDims.rhsIdx
  rw [dif_neg (show ¬(1 : Fin S128x40.rank) ∈ dot_S50000x128_S128x40_S50000x40_1_0_0_1_n_n.rhsBatch by decide), dif_pos (show (1 : Fin S128x40.rank) ∈ dot_S50000x128_S128x40_S50000x40_1_0_0_1_n_n.rhsNonContracting by decide)]
  rfl

/-- The host's product of the node table with a 128 × 128 matrix at an entry: the sum over the 128 features. -/
theorem product128 (x : FVec Ideal S50000x128 .f32) (w : FVec Ideal S128x128 .f32) (j : S50000x128.Idx) :
    Host.dotGeneral (F := Ideal) dot_S50000x128_S128x128_S50000x128_1_0_0_1_n_n none x w j
      = ∑ k : Fin 128, x (ix2 (j 0) k) * w (ix2 k (j 1)) := by
  simp only [Host.dotGeneral]
  rw [Ideal.dotGeneral_apply]
  exact contract_rows_cols dot_S50000x128_S128x128_S50000x128_1_0_0_1_n_n rfl rfl full128_lhs0 full128_lhs1 full128_rhs0 full128_rhs1 x w j

/-- The host's product of the node table with a 128 × 40 matrix at an entry: the sum over the 128 features. -/
theorem product40 (x : FVec Ideal S50000x128 .f32) (w : FVec Ideal S128x40 .f32) (j : S50000x40.Idx) :
    Host.dotGeneral (F := Ideal) dot_S50000x128_S128x40_S50000x40_1_0_0_1_n_n none x w j
      = ∑ k : Fin 128, x (ix2 (j 0) k) * w (ix2 k (j 1)) := by
  simp only [Host.dotGeneral]
  rw [Ideal.dotGeneral_apply]
  exact contract_rows_cols dot_S50000x128_S128x40_S50000x40_1_0_0_1_n_n rfl rfl full40_lhs0 full40_lhs1 full40_rhs0 full40_rhs1 x w j

/-- The bias made a one-row matrix and repeated along all 50000 rows reads, at `(r, c)`, the bias at `c`. -/
theorem bias_all_rows128 {α : Type} (b : S128.Idx → α) (j : S50000x128.Idx) :
    broadcastInDim S50000x128 ![0, 1] bcast_S1x128_S50000x128_0_1 (broadcastInDim S1x128 ![1] bcast_S128_S1x128_1 b) j = b (ix1 (j 1)) := by
  generalize hy : broadcastInDim S1x128 ![1] bcast_S128_S1x128_1 b = y
  rw [broadcastInDim_apply _ bcast_S1x128_S50000x128_0_1 y j (ix2 (0 : Fin 1) (j 1)) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]
  subst hy
  exact broadcastInDim_apply _ bcast_S128_S1x128_1 b _ (ix1 (j 1)) (fun a => match a with
    | ⟨0, _⟩ => by show (j 1).val = if (128 : Nat) = 1 then 0 else (j 1).val; rw [if_neg (by decide)])

theorem bias_all_rows40 {α : Type} (b : S40.Idx → α) (j : S50000x40.Idx) :
    broadcastInDim S50000x40 ![0, 1] bcast_S1x40_S50000x40_0_1 (broadcastInDim S1x40 ![1] bcast_S40_S1x40_1 b) j = b (ix1 (j 1)) := by
  generalize hy : broadcastInDim S1x40 ![1] bcast_S40_S1x40_1 b = y
  rw [broadcastInDim_apply _ bcast_S1x40_S50000x40_0_1 y j (ix2 (0 : Fin 1) (j 1)) (fun a => match a with
    | ⟨0, _⟩ => by show 0 = if (1 : Nat) = 1 then 0 else (j 0).val; rw [if_pos rfl]
    | ⟨1, _⟩ => by show (j 1).val = if (40 : Nat) = 1 then 0 else (j 1).val; rw [if_neg (by decide)])]
  subst hy
  exact broadcastInDim_apply _ bcast_S40_S1x40_1 b _ (ix1 (j 1)) (fun a => match a with
    | ⟨0, _⟩ => by show (j 1).val = if (40 : Nat) = 1 then 0 else (j 1).val; rw [if_neg (by decide)])

/-- Over the extended reals the hidden layer's operations compute `Sage.lin`. -/
theorem dense128_eq (h hn : FVec Ideal S50000x128 .f32) (ws wn : FVec Ideal S128x128 .f32) (b : FVec Ideal S128 .f32) :
    dense128 (F := Ideal) h hn ws wn b = lin h hn ws wn b := by
  funext j
  show (Host.dotGeneral (F := Ideal) dot_S50000x128_S128x128_S50000x128_1_0_0_1_n_n none h ws j
      + Host.dotGeneral (F := Ideal) dot_S50000x128_S128x128_S50000x128_1_0_0_1_n_n none hn wn j)
      + broadcastInDim S50000x128 ![0, 1] bcast_S1x128_S50000x128_0_1 (broadcastInDim S1x128 ![1] bcast_S128_S1x128_1 b) j = _
  rw [product128, product128, bias_all_rows128]
  rfl

/-- … the output layer's likewise. -/
theorem dense40_eq (h hn : FVec Ideal S50000x128 .f32) (ws wn : FVec Ideal S128x40 .f32) (b : FVec Ideal S40 .f32) :
    dense40 (F := Ideal) h hn ws wn b = lin h hn ws wn b := by
  funext j
  show (Host.dotGeneral (F := Ideal) dot_S50000x128_S128x40_S50000x40_1_0_0_1_n_n none h ws j
      + Host.dotGeneral (F := Ideal) dot_S50000x128_S128x40_S50000x40_1_0_0_1_n_n none hn wn j)
      + broadcastInDim S50000x40 ![0, 1] bcast_S1x40_S50000x40_0_1 (broadcastInDim S1x40 ![1] bcast_S40_S1x40_1 b) j = _
  rw [product40, product40, bias_all_rows40]
  rfl

/-- … and a rectified hidden layer computes `Sage.linRelu`: the zero it is compared with is the real zero. -/
theorem rectify_dense128_eq (h hn : FVec Ideal S50000x128 .f32) (ws wn : FVec Ideal S128x128 .f32) (b : FVec Ideal S128 .f32) :
    rectify (F := Ideal) (dense128 h hn ws wn b) = linRelu h hn ws wn b := by
  rw [dense128_eq]
  funext j
  show max (lin h hn ws wn b j) (Ideal.ofBits .f32 0x00000000#32) = max (lin h hn ws wn b j) 0
  rw [Ideal.ofBits_zero_f32]

end Cert.Sage.Host

end
-- ==== Proof.KernelValue.lean ====
/-
  The kernel program's result array, followed through @main: it is the reference's three layers of the launch arrays.

  @main alternates stretches of host operations with the three dense kernels.  Each stretch computes the
  neighbour means of the current node table — by the very operations the reference uses, so they are kept as the one
  function `Host.neighbourMean` — and writes nothing else that a later step reads; the arguments are never written.
  Each kernel leaves the layer of the arrays it is entered with (`Region….array…`), which over the extended reals is
  what the reference's two products, sum, bias and rectification compute (`Host.rectify_dense128_eq`,
  `Host.dense40_eq`).  Walking the boundaries `W1 … W6` from the launch gives the result.
-/
import proofs.«102101_j77575699300503_1_alg».proof.Proof.Gen.KernelIdeal.Frame
import proofs.«102101_j77575699300503_1_alg».proof.Proof.Region0
import proofs.«102101_j77575699300503_1_alg».proof.Proof.Region1
import proofs.«102101_j77575699300503_1_alg».proof.Proof.Region2
import proofs.«102101_j77575699300503_1_alg».proof.Proof.HostLayer
import Idealize.ShloMosaic.Lib.StableHlo.Run

set_option maxRecDepth 16384

noncomputable section

namespace Cert.Sage.Kernel

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- No operation of the named host stretch writes the buffer in the goal: each operation writes its one result
    buffer, and that is another buffer. -/
macro "not_written" ops:ident : tactic =>
  `(tactic| exact List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## A buffer nothing has written yet still holds its launch contents, at each boundary -/

theorem kept1 (c : Dev nD) (b : Ref sig .tc)
    (h0 : ∀ op ∈ (hostOps0 : List (HloOp τ sig (Elt Ideal))), Proc.devRef .tc b ∉ op.writes) :
    W1 m ρ c (Proc.devRef .tc b) = m ((c : Thread nD τ).loc b) :=
  StableHlo.after_of_forall_not_mem (b := Proc.devRef .tc b) _ _ h0

theorem kept2 (c : Dev nD) (b : Ref sig .tc)
    (h0 : ∀ op ∈ (hostOps0 : List (HloOp τ sig (Elt Ideal))), Proc.devRef .tc b ∉ op.writes)
    (r0 : ∀ w, Pipeline.arrRef spec0 w ≠ b) :
    W2 m ρ c (Proc.devRef .tc b) = m ((c : Thread nD τ).loc b) :=
  (W2_of_ne m ρ c b r0).trans (kept1 m ρ c b h0)

theorem kept3 (c : Dev nD) (b : Ref sig .tc)
    (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes) :
    W3 m ρ c (Proc.devRef .tc b) = m ((c : Thread nD τ).loc b) :=
  (StableHlo.after_of_forall_not_mem (b := Proc.devRef .tc b) _ _ h1).trans (kept2 m ρ c b h0 r0)

theorem kept4 (c : Dev nD) (b : Ref sig .tc)
    (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b) :
    W4 m ρ c (Proc.devRef .tc b) = m ((c : Thread nD τ).loc b) :=
  (W4_of_ne m ρ c b r1).trans (kept3 m ρ c b h0 r0 h1)

theorem kept5 (c : Dev nD) (b : Ref sig .tc)
    (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b)
    (h2 : ∀ op ∈ (hostOps2 : List (HloOp τ sig (Elt Ideal))), Proc.devRef .tc b ∉ op.writes) :
    W5 m ρ c (Proc.devRef .tc b) = m ((c : Thread nD τ).loc b) :=
  (StableHlo.after_of_forall_not_mem (b := Proc.devRef .tc b) _ _ h2).trans (kept4 m ρ c b h0 r0 h1 r1)

/-- The edge lists are arguments: nothing writes them, so they hold their launch contents at every boundary. -/
theorem src_at2 (c : Dev nD) : W2 m ρ c (Proc.devRef .tc main_arg1) = m ((c : Thread nD τ).loc main_arg1) :=
  kept2 m ρ c main_arg1 (by not_written hostOps0) (by decide)
theorem dst_at2 (c : Dev nD) : W2 m ρ c (Proc.devRef .tc main_arg2) = m ((c : Thread nD τ).loc main_arg2) :=
  kept2 m ρ c main_arg2 (by not_written hostOps0) (by decide)
theorem src_at4 (c : Dev nD) : W4 m ρ c (Proc.devRef .tc main_arg1) = m ((c : Thread nD τ).loc main_arg1) :=
  kept4 m ρ c main_arg1 (by not_written hostOps0) (by decide) (by not_written hostOps1) (by decide)
theorem dst_at4 (c : Dev nD) : W4 m ρ c (Proc.devRef .tc main_arg2) = m ((c : Thread nD τ).loc main_arg2) :=
  kept4 m ρ c main_arg2 (by not_written hostOps0) (by decide) (by not_written hostOps1) (by decide)

/-! ## Layer 0 -/

/-- The neighbour means the first stretch leaves for the first kernel. -/
theorem mean0 (c : Dev nD) : V1 m ρ c main_v18
    = Host.neighbourMean (F := Ideal) (m ((c : Thread nD τ).loc main_arg0)) (m ((c : Thread nD τ).loc main_arg1)) (m ((c : Thread nD τ).loc main_arg2)) := by
  show StableHlo.after hostOps0 (W0 m ρ c) (Proc.devRef .tc main_v18) = _
  dsimp only [hostOps0]
  after_results
  rfl

/-- The first kernel's result: the first hidden layer of the launch arrays. -/
theorem out0 (c : Dev nD) : W2 m ρ c (Proc.devRef .tc main_v19)
    = Host.hidden (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W2_arr m ρ c 5).trans ?_
  refine (Region0.array0 (V1 m ρ) c).trans ?_
  show linRelu (N := 50000) (D := 128) (V1 m ρ c main_arg0) (V1 m ρ c main_v18) (V1 m ρ c main_arg3) (V1 m ρ c main_arg4) (V1 m ρ c main_arg5) = _
  rw [mean0 m ρ c,
    show V1 m ρ c main_arg0 = m ((c : Thread nD τ).loc main_arg0) from kept1 m ρ c main_arg0 (by not_written hostOps0),
    show V1 m ρ c main_arg3 = m ((c : Thread nD τ).loc main_arg3) from kept1 m ρ c main_arg3 (by not_written hostOps0),
    show V1 m ρ c main_arg4 = m ((c : Thread nD τ).loc main_arg4) from kept1 m ρ c main_arg4 (by not_written hostOps0),
    show V1 m ρ c main_arg5 = m ((c : Thread nD τ).loc main_arg5) from kept1 m ρ c main_arg5 (by not_written hostOps0)]
  exact (Host.rectify_dense128_eq _ _ _ _ _).symm

/-! ## Layer 1 -/

/-- The neighbour means the second stretch leaves for the second kernel: those of the first kernel's result. -/
theorem mean1 (c : Dev nD) : V3 m ρ c main_v38
    = Host.neighbourMean (F := Ideal) (W2 m ρ c (Proc.devRef .tc main_v19)) (m ((c : Thread nD τ).loc main_arg1)) (m ((c : Thread nD τ).loc main_arg2)) := by
  show StableHlo.after hostOps1 (W2 m ρ c) (Proc.devRef .tc main_v38) = _
  dsimp only [hostOps1]
  after_results
  rw [src_at2 m ρ c, dst_at2 m ρ c]
  rfl

set_option maxHeartbeats 1000000 in
/-- The second kernel's result: the second hidden layer, of the first one's result. -/
theorem out1 (c : Dev nD) : W4 m ρ c (Proc.devRef .tc main_v39)
    = Host.hidden (F := Ideal) (W2 m ρ c (Proc.devRef .tc main_v19)) (m ((c : Thread nD τ).loc main_arg1)) (m ((c : Thread nD τ).loc main_arg2))
        (m ((c : Thread nD τ).loc main_arg6)) (m ((c : Thread nD τ).loc main_arg7)) (m ((c : Thread nD τ).loc main_arg8)) := by
  refine (W4_arr m ρ c 5).trans ?_
  refine (Region1.array1 (V3 m ρ) c).trans ?_
  show linRelu (N := 50000) (D := 128) (V3 m ρ c main_v19) (V3 m ρ c main_v38) (V3 m ρ c main_arg6) (V3 m ρ c main_arg7) (V3 m ρ c main_arg8) = _
  rw [mean1 m ρ c,
    show V3 m ρ c main_v19 = W2 m ρ c (Proc.devRef .tc main_v19) from
      StableHlo.after_of_forall_not_mem (b := Proc.devRef .tc main_v19) _ _ (by not_written hostOps1),
    show V3 m ρ c main_arg6 = m ((c : Thread nD τ).loc main_arg6) from kept3 m ρ c main_arg6 (by not_written hostOps0) (by decide) (by not_written hostOps1),
    show V3 m ρ c main_arg7 = m ((c : Thread nD τ).loc main_arg7) from kept3 m ρ c main_arg7 (by not_written hostOps0) (by decide) (by not_written hostOps1),
    show V3 m ρ c main_arg8 = m ((c : Thread nD τ).loc main_arg8) from kept3 m ρ c main_arg8 (by not_written hostOps0) (by decide) (by not_written hostOps1)]
  exact (Host.rectify_dense128_eq _ _ _ _ _).symm

/-! ## Layer 2 -/

/-- The neighbour means the third stretch leaves for the third kernel: those of the second kernel's result. -/
theorem mean2 (c : Dev nD) : V5 m ρ c main_v58
    = Host.neighbourMean (F := Ideal) (W4 m ρ c (Proc.devRef .tc main_v39)) (m ((c : Thread nD τ).loc main_arg1)) (m ((c : Thread nD τ).loc main_arg2)) := by
  show StableHlo.after hostOps2 (W4 m ρ c) (Proc.devRef .tc main_v58) = _
  dsimp only [hostOps2]
  after_results
  rw [src_at4 m ρ c, dst_at4 m ρ c]
  rfl

set_option maxHeartbeats 1000000 in
/-- The third kernel's result: the output layer, of the second hidden layer. -/
theorem out2 (c : Dev nD) : W6 m ρ c (Proc.devRef .tc main_v59)
    = Host.dense40 (F := Ideal) (W4 m ρ c (Proc.devRef .tc main_v39))
        (Host.neighbourMean (F := Ideal) (W4 m ρ c (Proc.devRef .tc main_v39)) (m ((c : Thread nD τ).loc main_arg1)) (m ((c : Thread nD τ).loc main_arg2)))
        (m ((c : Thread nD τ).loc main_arg9)) (m ((c : Thread nD τ).loc main_arg10)) (m ((c : Thread nD τ).loc main_arg11)) := by
  refine (W6_arr m ρ c 5).trans ?_
  refine (Region2.array2 (V5 m ρ) c).trans ?_
  show lin (N := 50000) (D := 40) (V5 m ρ c main_v39) (V5 m ρ c main_v58) (V5 m ρ c main_arg9) (V5 m ρ c main_arg10) (V5 m ρ c main_arg11) = _
  rw [mean2 m ρ c,
    show V5 m ρ c main_v39 = W4 m ρ c (Proc.devRef .tc main_v39) from
      StableHlo.after_of_forall_not_mem (b := Proc.devRef .tc main_v39) _ _ (by not_written hostOps2),
    show V5 m ρ c main_arg9 = m ((c : Thread nD τ).loc main_arg9) from kept5 m ρ c main_arg9 (by not_written hostOps0) (by decide) (by not_written hostOps1) (by decide) (by not_written hostOps2),
    show V5 m ρ c main_arg10 = m ((c : Thread nD τ).loc main_arg10) from kept5 m ρ c main_arg10 (by not_written hostOps0) (by decide) (by not_written hostOps1) (by decide) (by not_written hostOps2),
    show V5 m ρ c main_arg11 = m ((c : Thread nD τ).loc main_arg11) from kept5 m ρ c main_arg11 (by not_written hostOps0) (by decide) (by not_written hostOps1) (by decide) (by not_written hostOps2)]
  exact (Host.dense40_eq _ _ _ _ _).symm

/-- THE RESULT: the kernel program's result array after the last kernel is the reference's three layers of the launch
    arrays. -/
theorem result (c : Dev nD) : W6 m ρ c (Proc.devRef .tc main_v59)
    = Host.forward (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  rw [out2 m ρ c, out1 m ρ c, out0 m ρ c]
  rfl

end Cert.Sage.Kernel

end
-- ==== Proof.RefValue.lean ====
/-
  The reference program's result is the three layers `Host.forward` of its argument arrays.

  The reference's run ends with its result at the composed term of its host operations; that term is, operation for
  operation, the composition `Host.forward` spells out — neighbour means, two products, their sum, the bias, the
  rectification, three times over — so the two are equal by unfolding the names.
-/
import proofs.«102101_j77575699300503_1_alg».proof.Proof.Gen.ReferenceIdeal.Run
import proofs.«102101_j77575699300503_1_alg».proof.Proof.HostLayer

noncomputable section

namespace Cert.Sage.Reference

open Idealize.ShloMosaic Idealize.ShloMosaic.TcCoe Idealize.SL.Sem
open Cert.ReferenceIdeal Cert.ReferenceIdeal.Gen

variable {F : FTy → Type} [FloatOps F]

set_option maxRecDepth 8192 in
/-- The reference's result term is `Host.forward` of the launch arrays. -/
theorem result (m : (ℓ : Loc nD τ sig) → Buf (Elt F) ℓ) (c : Dev nD) :
    Cert.ReferenceIdeal.Value.res_main_v76 (F := F) m c
      = Host.forward (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold Cert.ReferenceIdeal.Value.res_main_v76
  rfl

end Cert.Sage.Reference

end
-- ==== Proof.lean ====
/-
  A three-layer GraphSAGE network (mean aggregation), its dense per-node transform as a tiled kernel, against the jnp
  reference: the two idealized programs end with equal results over the extended reals.

  Both programs compute, three times, the neighbour means of the current node table `h` along the edges and then

      (h · w_self  +  mean(h) · w_neigh)  +  bias,

  rectified after the first two layers.  The neighbour means are host operations in both programs, the same ones, and
  stay one opaque function (`Host.neighbourMean`).  The reference does the rest on the host too (`Host.forward`,
  Proof/HostLayer.lean; its run's term is that composition, Proof/RefValue.lean).  The kernel program does the dense
  transform in a kernel over ten tiles of 5000 rows: a row of the layer needs the same row of `h` and of the means only,
  so the tiles' results, written back to the same rows, assemble to the layer of the whole tables (Proof/Region0.lean,
  Region1.lean, Region2.lean over Proof/KernelBody.lean and Proof/DenseSpec.lean); narrowing to bf16 is the identity
  on exact values and a matrix-unit product into zero is the plain sum of products, as the host's is.  Following the
  result array through @main's stretches and kernels (Proof/KernelValue.lean, over the run Proof/KernelRun.lean
  re-states with the result array named) gives the same `Host.forward` of the launch arrays.  No law of arithmetic
  beyond reading both sides entry by entry is used, so the finiteness of the inputs is never needed.

  The three frames are the generated ones (the reference's is its generated run with the result dropped); the ideal
  pass rewrote nothing, so `preserves` is trivial.
-/
import proofs.«102101_j77575699300503_1_alg».proof.Defs
import proofs.«102101_j77575699300503_1_alg».proof.Proof.Gen.Kernel
import proofs.«102101_j77575699300503_1_alg».proof.Proof.Gen.Kernel.Skeleton
import proofs.«102101_j77575699300503_1_alg».proof.Proof.Gen.Kernel.Launch
import proofs.«102101_j77575699300503_1_alg».proof.Proof.Gen.Kernel.Points
import proofs.«102101_j77575699300503_1_alg».proof.Proof.Gen.Kernel.Frame
import proofs.«102101_j77575699300503_1_alg».proof.Proof.Gen.KernelIdeal
import proofs.«102101_j77575699300503_1_alg».proof.Proof.Gen.KernelIdeal.Skeleton
import proofs.«102101_j77575699300503_1_alg».proof.Proof.Gen.KernelIdeal.Launch
import proofs.«102101_j77575699300503_1_alg».proof.Proof.Gen.KernelIdeal.Points
import proofs.«102101_j77575699300503_1_alg».proof.Proof.Gen.KernelIdeal.Frame
import proofs.«102101_j77575699300503_1_alg».proof.Proof.Gen.ReferenceIdeal
import proofs.«102101_j77575699300503_1_alg».proof.Proof.Gen.ReferenceIdeal.Run
import proofs.«102101_j77575699300503_1_alg».proof.Proof.Gen.Pre_finite_inputs
import proofs.«102101_j77575699300503_1_alg».proof.Proof.KernelRun
import proofs.«102101_j77575699300503_1_alg».proof.Proof.KernelValue
import proofs.«102101_j77575699300503_1_alg».proof.Proof.RefValue
import Idealize.ShloMosaic.Adequacy
import Idealize.ShloMosaic.Init

noncomputable section

namespace Cert.Proof

open Idealize.ShloMosaic Idealize.SL.Sem Cert.Sage

/-- The kernel program's run, at the bit level and idealized, from its generated frame. -/
theorem frame_bits : Cert.frame_Kernel := fun m ρ _ => Cert.Kernel.Gen.frame m ρ
theorem frame_ideal : Cert.frame_KernelIdeal := fun m ρ _ => Cert.KernelIdeal.Gen.frame m ρ
/-- The reference's run, from its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with their result at `Host.forward` of the argument arrays, which agree. -/
theorem algebraic : Cert.algebraic_KernelIdeal_ReferenceIdeal := by
  intro m ρ m' ρ' _ hagree
  refine ⟨fun c => Host.forward (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Kernel.result m ρ c), (h c).2⟩)
      (Run.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11⟩ := hagree c
    rw [Reference.result m' c, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_bits, frame_ideal, frame_reference, trivial, algebraic⟩

end Cert.Proof

end
